-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S64x64 : Shape := ⟨2, ![64, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : IVec S1x800000 32 := (extractStridedSlice S1x800000 ![0, 0] · slices_S2x800000_S1x800000_0_0) main_arg1
  let main_v25 : IVec S800000 32 := shapeCast S800000 main_v24 shapeCasts_S1x800000_S800000
  let main_c_8 : IVec S_ 32 := constantI S_ 32 0#32
  let main_v26 : IVec S800000 32 := broadcastInDim S800000 ![] bcast_S_S800000 main_c_8
  let main_v27 : IVec S800000 1 := cmpi .sge main_v25 main_v26
  let main_v28 : IVec S1x800000 32 := (extractStridedSlice S1x800000 ![0, 0] · slices_S2x800000_S1x800000_0_0) main_arg1
  let main_v29 : IVec S800000 32 := shapeCast S800000 main_v28 shapeCasts_S1x800000_S800000
  let main_c_9 : IVec S_ 32 := constantI S_ 32 50000#32
  let main_v30 : IVec S800000 32 := broadcastInDim S800000 ![] bcast_S_S800000 main_c_9
  let main_v31 : IVec S800000 1 := cmpi .slt main_v29 main_v30
  let main_v32 : IVec S800000 1 := andi main_v27 main_v31
  let main_c_10 : IVec S_ 1 := constantI S_ 1 1#1
  let main_v33 : IVec S_ 1 := (fun x v => Host.reduce IntOp.andi x v reducesTo_S800000_S_d0 h_S_) main_v32 main_c_10
  let main_v34 : IVec S_ 1 := andi main_v23 main_v33
  main_v34

def fn {F : FTy → Type} [FloatOps F] (main_arg0 : FVec F S50000x64 .f32) (main_arg1 : IVec S2x800000 32) (main_arg2 : FVec F S800000x64 .f32) (main_arg3 : FVec F S64x64 .f32) (main_arg4 : FVec F S64x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S1x64 : Shape := ⟨2, ![1, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S6400x64 : Shape := ⟨2, ![6400, 64]⟩
abbrev S50000 : Shape := ⟨1, ![50000]⟩
abbrev S50000x1 : Shape := ⟨2, ![50000, 1]⟩
abbrev S5000x64 : Shape := ⟨2, ![5000, 64]⟩
abbrev S5000x1 : Shape := ⟨2, ![5000, 1]⟩

abbrev nBuf : Space → Nat
  | .hbm => 47
  | .vmem => 17
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S1x64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S1, .i32⟩
  | .hbm, ⟨20, _⟩ => ⟨S_, .i32⟩
  | .hbm, ⟨21, _⟩ => ⟨S800000x1, .i32⟩
  | .hbm, ⟨22, _⟩ => ⟨S800000x1, .i1⟩
  | .hbm, ⟨23, _⟩ => ⟨S1x1, .i32⟩
  | .hbm, ⟨24, _⟩ => ⟨S800000x1, .i32⟩
  | .hbm, ⟨25, _⟩ => ⟨S800000x1, .i1⟩
  | .hbm, ⟨26, _⟩ => ⟨S800000x1, .i1⟩
  | .hbm, ⟨27, _⟩ => ⟨S_, .i1⟩
  | .hbm, ⟨28, _⟩ => ⟨S800000, .i1⟩
  | .hbm, ⟨29, _⟩ => ⟨S800000x64, .f32⟩
  | .hbm, ⟨30, _⟩ => ⟨S800000x64, .i1⟩
  | .hbm, ⟨31, _⟩ => ⟨S_, .f32⟩
  | .hbm, ⟨32, _⟩ => ⟨S800000x64, .f32⟩
  | .hbm, ⟨33, _⟩ => ⟨S800000x64, .f32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S_, .f32⟩
  | .hbm, ⟨40, _⟩ => ⟨S800000, .f32⟩
  | .hbm, ⟨41, _⟩ => ⟨S_, .f32⟩
  | .hbm, ⟨42, _⟩ => ⟨S50000, .f32⟩
  | .hbm, ⟨43, _⟩ => ⟨S800000x1, .i32⟩
  | .hbm, ⟨44, _⟩ => ⟨S50000, .f32⟩
  | .hbm, ⟨45, _⟩ => ⟨S50000x1, .f32⟩
  | .hbm, ⟨46, _⟩ => ⟨S50000x64, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S64x64, .f32⟩
  | .local _ .vmem, ⟨5, _⟩ => ⟨S6400x64, .f32⟩
  | .local _ .vmem, ⟨6, _⟩ => ⟨S6400x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_0 : Ref sig .tc := ⟨.hbm, 39, rfl⟩
abbrev main_v10 : Ref sig .tc := ⟨.hbm, 40, rfl⟩
abbrev main_cst_1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6400x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  inb_S6400x64_S6400x64_0_0 : ∀ a, (![0, 0] : Fin 2 → Nat) a + S6400x64.size a ≤ S6400x64.size a
  h_S6400x64 : 0 < S6400x64.numel
  inb_S64x64_S64x64_0_0 : ∀ a, (![0, 0] : Fin 2 → Nat) a + S64x64.size a ≤ S64x64.size a
  h_S64x64 : 0 < S64x64.numel
  shapeCasts_S6400x64_S6400x64 : S6400x64.ShapeCasts S6400x64
  bcast_S_S50000x64 : S_.BroadcastsInDim S50000x64 (![] : Fin 0 → Fin S50000x64.rank)
  bcast_S_S50000 : S_.BroadcastsInDim S50000 (![] : Fin 0 → Fin S50000.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S6400x64_S64x64_S6400x64_1_0_0_1_n_n_wf : DotDims.WF S6400x64 S64x64 S6400x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S800000x64.size a
  hwx0_0 : ∀ i : grid0.Coords, EltTy.bits .f32 = 32 ∨ (Rect.block (s := S800000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S800000x64.size a
  hwx0_1 : ∀ i : grid0.Coords, EltTy.bits .f32 = 32 ∨ (Rect.block (s := S800000x64) S6400x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x64.size a ≤ S800000x64.size a
  hwx0_3 : ∀ i : grid0.Coords, EltTy.bits .f32 = 32 ∨ (Rect.block (s := S800000x64) S6400x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg2) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S6400x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S1x64 : Shape := ⟨2, ![1, 64]⟩

abbrev nBuf : Space → Nat
  | .hbm => 42
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S800000x64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S1x64, .f32⟩
  | .hbm, ⟨40, _⟩ => ⟨S50000x64, .f32⟩
  | .hbm, ⟨41, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The two whole-array functions this certificate is about, over the extended reals, and the index
  arithmetic they share.

  * An edge's message: for edge `e` and channel `q`,
      `(∑ k, edge_emb[e, k] · l_weight[k, q]) · xg[e, q]`,
    where `xg` is the row of `x` gathered at the edge's source node.
  * A node's output: for node `p` and channel `q`,
      `msg_sum[p, q] / max (deg[p], 1) + ∑ k, x[p, k] · root[k, q] + bias[q]`,
    with the in-degree held as a [50000, 1] column and the bias as a [1, 64] row.

  Both matrix products are written as a sum over the 64 contracted coordinates; no law of the
  extended reals beyond the meaning of the operations is used anywhere, so finiteness of the float
  inputs is never called on.
-/
import Idealize.ShloMosaic.PureOps.Ideal
import Idealize.ShloMosaic.Lib.ValueIdx

noncomputable section

open scoped BigOperators

namespace Cert.Spec

open Idealize.ShloMosaic

/-- In an [n, 64] array: the entry in the row of `i`, at column `k`. -/
abbrev atRow {n : Nat} (i : (⟨2, ![n, 64]⟩ : Shape).Idx) (k : Fin 64) : (⟨2, ![n, 64]⟩ : Shape).Idx := fun a => match a with
  | ⟨0, _⟩ => ⟨(i 0).val, (i 0).isLt⟩
  | ⟨1, _⟩ => ⟨k.val, k.isLt⟩

/-- In a [64, 64] matrix: the entry in row `k`, at the column of `i`. -/
abbrev atCol {n : Nat} (i : (⟨2, ![n, 64]⟩ : Shape).Idx) (k : Fin 64) : (⟨2, ![64, 64]⟩ : Shape).Idx := fun a => match a with
  | ⟨0, _⟩ => ⟨k.val, k.isLt⟩
  | ⟨1, _⟩ => ⟨(i 1).val, (i 1).isLt⟩

/-- The product of an [n, 64] array with a [64, 64] matrix, entry by entry: the sum over the contracted coordinate. -/
def matProd {n : Nat} (a : (⟨2, ![n, 64]⟩ : Shape).Idx → EReal) (b : (⟨2, ![64, 64]⟩ : Shape).Idx → EReal) :
    (⟨2, ![n, 64]⟩ : Shape).Idx → EReal :=
  fun i => ∑ k : Fin 64, a (atRow i k) * b (atCol i k)

/-- Every edge's message: the edge embedding times the relation weight, scaled channel by channel by the gathered
    source row. -/
def edgeMsg (ee xg : (⟨2, ![800000, 64]⟩ : Shape).Idx → EReal) (lw : (⟨2, ![64, 64]⟩ : Shape).Idx → EReal) :
    (⟨2, ![800000, 64]⟩ : Shape).Idx → EReal :=
  fun i => matProd ee lw i * xg i

/-- The number one, as the f32 word both programs carry for it. -/
abbrev one : EReal := Ideal.ofBits .f32 0x3F800000#32

/-- The in-degree column's entry for the node of `i`. -/
abbrev degIdx (i : (⟨2, ![50000, 64]⟩ : Shape).Idx) : (⟨2, ![50000, 1]⟩ : Shape).Idx := fun a => match a with
  | ⟨0, _⟩ => ⟨(i 0).val, (i 0).isLt⟩
  | ⟨1, _⟩ => ⟨0, Nat.one_pos⟩

/-- The bias row's entry for the channel of `i`. -/
abbrev biasIdx (i : (⟨2, ![50000, 64]⟩ : Shape).Idx) : (⟨2, ![1, 64]⟩ : Shape).Idx := fun a => match a with
  | ⟨0, _⟩ => ⟨0, Nat.one_pos⟩
  | ⟨1, _⟩ => ⟨(i 1).val, (i 1).isLt⟩

/-- Every node's output: the mean of its incoming messages (the sum over the in-degree, an isolated node's sum over one),
    plus the node's own row through the root weight, plus the bias. -/
def nodeOut (ms : (⟨2, ![50000, 64]⟩ : Shape).Idx → EReal) (dg : (⟨2, ![50000, 1]⟩ : Shape).Idx → EReal)
    (x : (⟨2, ![50000, 64]⟩ : Shape).Idx → EReal) (root : (⟨2, ![64, 64]⟩ : Shape).Idx → EReal)
    (b : (⟨2, ![1, 64]⟩ : Shape).Idx → EReal) : (⟨2, ![50000, 64]⟩ : Shape).Idx → EReal :=
  fun i => Ideal.div (ms i) (max (dg (degIdx i)) one) + matProd x root i + b (biasIdx i)

end Cert.Spec

end
-- ==== Proof.EdgeRegion.lean ====
/-
  The first pallas_call (the edge kernel), as one whole-array fact. Its grid has 125 points; point `t` reads rows
  `6400·t … 6400·t + 6399` of the edge embeddings and of the gathered source rows, the whole [64, 64] relation
  weight, and writes the same rows of the message array. Inside a block the body multiplies the block's matrix
  product, entry by entry, with the gathered block. So whatever the arrays hold when the call is entered, the
  message array ends holding `Spec.edgeMsg` of them: each block is that function restricted to its rows, and the
  125 blocks tile the 800000 rows.
-/
import proofs.«427790_j36249523978270_3_alg».proof.Proof.Gen.KernelIdeal.Frame
import proofs.«427790_j36249523978270_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.EdgeRegion

open Cert.KernelIdeal Cert.KernelIdeal.Gen Cert.Spec Idealize.ShloMosaic Idealize.ShloMosaic.TcCoe Idealize.SL.Sem
open Idealize.ShloMosaic.Pipeline (Dat Cfg Window)

/-! ## The body's arithmetic at an index

The kernel's matrix unit call into a zero accumulator is the plain sum over the contracted coordinate; the four
lemmas say which operand entries the product at (row, column) and contraction step reads. -/

theorem lhsE_0 (i : S6400x64.Idx) (q : dot_S6400x64_S64x64_S6400x64_1_0_0_1_n_n.contr.Idx) :
    (dot_S6400x64_S64x64_S6400x64_1_0_0_1_n_n.lhsIdx i q 0).val = (i 0).val := by
  unfold DotDims.lhsIdx
  rw [dif_neg (show ¬(0 : Fin S6400x64.rank) ∈ dot_S6400x64_S64x64_S6400x64_1_0_0_1_n_n.lhsBatch by decide), dif_pos (show (0 : Fin S6400x64.rank) ∈ dot_S6400x64_S64x64_S6400x64_1_0_0_1_n_n.lhsNonContracting by decide)]
  rfl
theorem lhsE_1 (i : S6400x64.Idx) (q : dot_S6400x64_S64x64_S6400x64_1_0_0_1_n_n.contr.Idx) :
    (dot_S6400x64_S64x64_S6400x64_1_0_0_1_n_n.lhsIdx i q 1).val = (q ⟨0, by decide⟩).val :=
  dot_S6400x64_S64x64_S6400x64_1_0_0_1_n_n.lhsIdx_val_of_single rfl i q
theorem rhsE_0 (i : S6400x64.Idx) (q : dot_S6400x64_S64x64_S6400x64_1_0_0_1_n_n.contr.Idx) :
    (dot_S6400x64_S64x64_S6400x64_1_0_0_1_n_n.rhsIdx i q 0).val = (q ⟨0, by decide⟩).val :=
  dot_S6400x64_S64x64_S6400x64_1_0_0_1_n_n.rhsIdx_val_of_single rfl i q
theorem rhsE_1 (i : S6400x64.Idx) (q : dot_S6400x64_S64x64_S6400x64_1_0_0_1_n_n.contr.Idx) :
    (dot_S6400x64_S64x64_S6400x64_1_0_0_1_n_n.rhsIdx i q 1).val = (i 1).val := by
  unfold DotDims.rhsIdx
  rw [dif_neg (show ¬(1 : Fin S64x64.rank) ∈ dot_S6400x64_S64x64_S6400x64_1_0_0_1_n_n.rhsBatch by decide), dif_pos (show (1 : Fin S64x64.rank) ∈ dot_S6400x64_S64x64_S6400x64_1_0_0_1_n_n.rhsNonContracting by decide)]
  rfl

/-- One block's result at a local index: the block's product row times the gathered block's entry. -/
theorem pay_at (x0 : Vec Ideal S6400x64 .f32) (x2 : Vec Ideal S64x64 .f32) (x1 : Vec Ideal S6400x64 .f32) (y : S6400x64.Idx) :
    k0_pay1 (F := Ideal) x0 x2 x1 y = (∑ k : Fin 64, x0 (atRow y k) * x2 (atCol y k)) * x1 y := by
  unfold k0_pay1
  refine (ValueIdx.mulf_apply _ _ y).trans ?_
  rw [shapeCast_self]
  unfold matmul
  rw [Ideal.matmul_constant_zero_apply, ← Equiv.sum_comp (ValueIdx.contrEquiv1 dot_S6400x64_S64x64_S6400x64_1_0_0_1_n_n 64 rfl rfl).symm]
  refine congrArg (· * x1 y) (Finset.sum_congr rfl fun k _ => ?_)
  have hk := ValueIdx.contrEquiv1_symm_val dot_S6400x64_S64x64_S6400x64_1_0_0_1_n_n 64 rfl rfl k
  have el : dot_S6400x64_S64x64_S6400x64_1_0_0_1_n_n.lhsIdx y ((ValueIdx.contrEquiv1 dot_S6400x64_S64x64_S6400x64_1_0_0_1_n_n 64 rfl rfl).symm k) = atRow y k := funext fun a => Fin.ext (by
    match a with
    | ⟨0, _⟩ => exact lhsE_0 _ _
    | ⟨1, _⟩ => exact (lhsE_1 _ _).trans hk)
  have er : dot_S6400x64_S64x64_S6400x64_1_0_0_1_n_n.rhsIdx y ((ValueIdx.contrEquiv1 dot_S6400x64_S64x64_S6400x64_1_0_0_1_n_n 64 rfl rfl).symm k) = atCol y k := funext fun a => Fin.ext (by
    match a with
    | ⟨0, _⟩ => exact (rhsE_0 _ _).trans hk
    | ⟨1, _⟩ => exact rhsE_1 _ _)
  rw [el, er]

/-! ## From blocks to the array -/

variable (V : (c : Dev nD) → (b : Ref sig .tc) → Buf (Elt Ideal) ((c : Thread nD τ).loc b))

/-- The arrays the call reads, at their literal types: edge embeddings, gathered source rows, relation weight. -/
abbrev eeArr (c : Dev nD) : S800000x64.Idx → EReal := V c main_arg2
abbrev xgArr (c : Dev nD) : S800000x64.Idx → EReal := V c main_v5
abbrev lwArr (c : Dev nD) : S64x64.Idx → EReal := V c main_arg3

theorem zeroStart : (![0, 0] : Fin 2 → Nat) = fun _ => 0 := funext fun a => by fin_cases a <;> rfl

/-- The printed index maps over the grid: both row-blocked inputs move with the output (block row `t`, block column 0),
    the weight stays at block (0, 0). -/
theorem blockIndex : ∀ t : Fin cfg0.N, win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the message function of the arrays as the call finds them. -/
theorem flushed_eq (c : Dev nD) (t : Fin cfg0.N) :
    (dat0 V c).flushed 3 t = ((cfg0.win 3).blk t).view.read (Elt Ideal) (edgeMsg (V c main_arg2) (V c main_v5) (V c main_arg3)) := by
  show (cfg0.win 3).cut (grid0.coords t) ((dat0 V c).after 3 t) = _
  rw [after0_3]
  unfold out0_3
  rw [View.canon_unit_zero zeroStart]
  simp only [View.ld_unit_zero (S := S6400x64) zeroStart, View.ld_unit_zero (S := S64x64) zeroStart]
  funext j
  show k0_pay1 (F := Ideal) (iblk0 V c 0 t) (iblk0 V c 2 t) (iblk0 V c 1 t) j = edgeMsg (V c main_arg2) (V c main_v5) (V c main_arg3) (((cfg0.win 3).blk t).view.emb j)
  refine (pay_at _ _ _ j).trans ?_
  obtain ⟨e0, e1, e2, e3, e4, e5, e6, e7⟩ := blockIndex t
  have hj0 : (j 0).val < 6400 := (j 0).isLt
  have hj1 : (j 1).val < 64 := (j 1).isLt
  -- the gathered block's entry is the gathered array's at the output's own index
  have r1 : ((cfg0.win 1).blk t).view.emb j = ((cfg0.win 3).blk t).view.emb j := by
    funext a; apply Fin.ext
    match a with
    | ⟨0, _⟩ => show win0_1.index t (0 : Fin 2) * 6400 + 1 * (j 0).val = win0_3.index t (0 : Fin 2) * 6400 + 1 * (j 0).val; omega
    | ⟨1, _⟩ => show win0_1.index t (1 : Fin 2) * 64 + 1 * (j 1).val = win0_3.index t (1 : Fin 2) * 64 + 1 * (j 1).val; omega
  -- the embedding block's row entry is the embedding array's in the output's row
  have r0 : ∀ k : Fin 64, ((cfg0.win 0).blk t).view.emb (atRow j k) = atRow (((cfg0.win 3).blk t).view.emb j) k := fun k => by
    have hk : k.val < 64 := k.isLt
    funext a; apply Fin.ext
    match a with
    | ⟨0, _⟩ => show win0_0.index t (0 : Fin 2) * 6400 + 1 * (j 0).val = win0_3.index t (0 : Fin 2) * 6400 + 1 * (j 0).val; omega
    | ⟨1, _⟩ => show win0_0.index t (1 : Fin 2) * 64 + 1 * k.val = k.val; omega
  -- the weight block is the whole weight
  have r2 : ∀ k : Fin 64, ((cfg0.win 2).blk t).view.emb (atCol j k) = atCol (((cfg0.win 3).blk t).view.emb j) k := fun k => by
    have hk : k.val < 64 := k.isLt
    funext a; apply Fin.ext
    match a with
    | ⟨0, _⟩ => show win0_2.index t (0 : Fin 2) * 64 + 1 * k.val = k.val; omega
    | ⟨1, _⟩ => show win0_2.index t (1 : Fin 2) * 64 + 1 * (j 1).val = win0_3.index t (1 : Fin 2) * 64 + 1 * (j 1).val; omega
  show (∑ k : Fin 64, eeArr V c (((cfg0.win 0).blk t).view.emb (atRow j k)) * lwArr V c (((cfg0.win 2).blk t).view.emb (atCol j k)))
      * xgArr V c (((cfg0.win 1).blk t).view.emb j)
    = (∑ k : Fin 64, eeArr V c (atRow (((cfg0.win 3).blk t).view.emb j) k) * lwArr V c (atCol (((cfg0.win 3).blk t).view.emb j) k))
      * xgArr V c (((cfg0.win 3).blk t).view.emb j)
  rw [r1]
  refine congrArg (· * _) (Finset.sum_congr rfl fun k _ => ?_)
  rw [r0 k, r2 k]

/-- A message index lies in point `t`'s block iff each coordinate is in the block's range. -/
theorem mem_blk (t : Fin cfg0.N) (i : S800000x64.Idx) :
    i ∈ ((cfg0.win 3).blk t).view.set ↔ ∀ a : Fin 2, win0_3.index t a * S6400x64.size a ≤ (i a).val ∧ (i a).val < win0_3.index t a * S6400x64.size a + S6400x64.size a := by
  show i ∈ ((View.whole main_v6).slice (win0_3.rect t)).set ↔ _
  rw [View.set_slice_whole, Rect.mem_set_unit]
  exact Iff.rfl

/-- Every message index is in the block of the point its row falls in. -/
theorem cover (i : S800000x64.Idx) : ∃ t : Fin cfg0.N, (cfg0.win 3).flush t = true ∧ i ∈ ((cfg0.win 3).blk t).view.set := by
  have hi0 : (i 0).val < 800000 := (i 0).isLt
  have hi1 : (i 1).val < 64 := (i 1).isLt
  have hN : cfg0.N = 125 := N_0
  let t : Fin cfg0.N := ⟨(i 0).val / 6400, by rw [hN]; omega⟩
  obtain ⟨-, -, -, -, -, -, e6, e7⟩ := blockIndex t
  have ht : t.val = (i 0).val / 6400 := rfl
  refine ⟨t, flush0_3 t, ?_⟩
  rw [mem_blk]
  intro a
  match a with
  | ⟨0, _⟩ => show win0_3.index t (0 : Fin 2) * 6400 ≤ (i 0).val ∧ (i 0).val < win0_3.index t (0 : Fin 2) * 6400 + 6400; omega
  | ⟨1, _⟩ => show win0_3.index t (1 : Fin 2) * 64 ≤ (i 1).val ∧ (i 1).val < win0_3.index t (1 : Fin 2) * 64 + 64; omega

/-- The message array after the call, whatever the arrays held at its entry. -/
theorem final (c : Dev nD) : (dat0 V c).arrAt 3 cfg0.N = edgeMsg (V c main_arg2) (V c main_v5) (V c main_arg3) :=
  (dat0 V c).arrAt_eq_of_cover 3 _ (fun t _ => flushed_eq V c t) cover

end Cert.KernelIdeal.EdgeRegion

end
-- ==== Proof.NodeRegion.lean ====
/-
  The second pallas_call (the finalize kernel), as one whole-array fact. Its grid has 10 points; point `t` reads
  rows `5000·t … 5000·t + 4999` of the message sums, of the in-degree column and of the node features, the whole
  root weight and the bias row, and writes the same rows of the output. Inside a block the body divides the message
  sum by `max (deg, 1)` laid along the channels, adds the block's product with the root weight, then the bias laid
  along the rows. So whatever the arrays hold when the call is entered, the output ends holding `Spec.nodeOut` of
  them: each block is that function restricted to its rows, and the 10 blocks tile the 50000 rows.
-/
import proofs.«427790_j36249523978270_3_alg».proof.Proof.Gen.KernelIdeal.Frame
import proofs.«427790_j36249523978270_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.NodeRegion

open Cert.KernelIdeal Cert.KernelIdeal.Gen Cert.Spec Idealize.ShloMosaic Idealize.ShloMosaic.TcCoe Idealize.SL.Sem
open Idealize.ShloMosaic.Pipeline (Dat Cfg Window)

/-! ## The body's arithmetic at an index

The kernel's matrix unit call into a zero accumulator is the plain sum over the contracted coordinate; the four
lemmas say which operand entries the product at (row, column) and contraction step reads. -/

theorem lhsN_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsN_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsN_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsN_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- In a block: the in-degree column's entry for the row of `y`. -/
abbrev colOf (y : S5000x64.Idx) : S5000x1.Idx := fun a => match a with
  | ⟨0, _⟩ => ⟨(y 0).val, (y 0).isLt⟩
  | ⟨1, _⟩ => ⟨0, Nat.one_pos⟩
/-- In a block: the bias row's entry for the channel of `y`. -/
abbrev rowOf (y : S5000x64.Idx) : S1x64.Idx := fun a => match a with
  | ⟨0, _⟩ => ⟨0, Nat.one_pos⟩
  | ⟨1, _⟩ => ⟨(y 1).val, (y 1).isLt⟩

/-- The block's product with the root weight at a local index. -/
theorem prod_at (x2 : Vec Ideal S5000x64 .f32) (x3 : Vec Ideal S64x64 .f32) (y : S5000x64.Idx) :
    matmul (F := Ideal) (φ₁ := .f32) (φ₂ := .f32) dot_S5000x64_S64x64_S5000x64_1_0_0_1_n_n none x2 x3 (constant S5000x64 .f32 0x00000000#32) y = ∑ k : Fin 64, x2 (atRow y k) * x3 (atCol y k) := by
  unfold matmul
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx y ((ValueIdx.contrEquiv1 dot_S5000x64_S64x64_S5000x64_1_0_0_1_n_n 64 rfl rfl).symm k) = atRow y k := funext fun a => Fin.ext (by
    match a with
    | ⟨0, _⟩ => exact lhsN_0 _ _
    | ⟨1, _⟩ => exact (lhsN_1 _ _).trans hk)
  have er : dot_S5000x64_S64x64_S5000x64_1_0_0_1_n_n.rhsIdx y ((ValueIdx.contrEquiv1 dot_S5000x64_S64x64_S5000x64_1_0_0_1_n_n 64 rfl rfl).symm k) = atCol y k := funext fun a => Fin.ext (by
    match a with
    | ⟨0, _⟩ => exact (rhsN_0 _ _).trans hk
    | ⟨1, _⟩ => exact rhsN_1 _ _)
  rw [el, er]

/-- The in-degree column, floored at one, laid along the channels. -/
theorem degree_at (x1 : Vec Ideal S5000x1 .f32) (y : S5000x64.Idx) :
    broadcastTo S5000x64 (maximumf (shapeCast S5000x1 x1 shapeCasts_S5000x1_S5000x1) (broadcast S5000x1 (Scalar.ofBits (F := Ideal) .f32 0x3F800000#32))) broadcasts_S5000x1_S5000x64 y
      = max (x1 (colOf y)) one := by
  refine (broadcastTo_apply _ broadcasts_S5000x1_S5000x64 y (colOf y) (fun a => match a with
    | ⟨0, _⟩ => by show (y 0).val = if (5000 : Nat) = 1 then 0 else (y 0).val; rw [if_neg (by decide)]
    | ⟨1, _⟩ => by show 0 = if (1 : Nat) = 1 then 0 else (y 1).val; rw [if_pos rfl])).trans ?_
  refine (ValueIdx.maximumf_apply _ _ _).trans ?_
  rw [shapeCast_self]
  rfl

/-- The bias row laid along the rows. -/
theorem bias_at (x4 : Vec Ideal S1x64 .f32) (y : S5000x64.Idx) :
    broadcastTo S5000x64 (shapeCast S1x64 x4 shapeCasts_S1x64_S1x64) broadcasts_S1x64_S5000x64 y = x4 (rowOf y) := by
  refine (broadcastTo_apply _ broadcasts_S1x64_S5000x64 y (rowOf y) (fun a => match a with
    | ⟨0, _⟩ => by show 0 = if (1 : Nat) = 1 then 0 else (y 0).val; rw [if_pos rfl]
    | ⟨1, _⟩ => by show (y 1).val = if (64 : Nat) = 1 then 0 else (y 1).val; rw [if_neg (by decide)])).trans ?_
  rw [shapeCast_self]

/-- One block's result at a local index. -/
theorem pay_at (x0 : Vec Ideal S5000x64 .f32) (x1 : Vec Ideal S5000x1 .f32) (x2 : Vec Ideal S5000x64 .f32) (x3 : Vec Ideal S64x64 .f32)
    (x4 : Vec Ideal S1x64 .f32) (y : S5000x64.Idx) :
    k1_pay1 (F := Ideal) x0 x1 x2 x3 x4 y
      = Ideal.div (x0 y) (max (x1 (colOf y)) one) + (∑ k : Fin 64, x2 (atRow y k) * x3 (atCol y k)) + x4 (rowOf y) := by
  unfold k1_pay1
  refine (ValueIdx.addf_apply _ _ y).trans ?_
  refine congrArg₂ (· + ·) ?_ (bias_at x4 y)
  refine (ValueIdx.addf_apply _ _ y).trans ?_
  refine congrArg₂ (· + ·) ?_ (prod_at x2 x3 y)
  refine (ValueIdx.divf_apply _ _ y).trans ?_
  rw [shapeCast_self]
  exact congrArg (Ideal.div (x0 y)) (degree_at x1 y)

/-! ## From blocks to the array -/

variable (V : (c : Dev nD) → (b : Ref sig .tc) → Buf (Elt Ideal) ((c : Thread nD τ).loc b))

/-- The arrays the call reads, at their literal types: message sums, in-degree column, node features, root weight,
    bias row. -/
abbrev msArr (c : Dev nD) : S50000x64.Idx → EReal := V c main_v9
abbrev dgArr (c : Dev nD) : S50000x1.Idx → EReal := V c main_v14
abbrev xArr (c : Dev nD) : S50000x64.Idx → EReal := V c main_arg0
abbrev rootArr (c : Dev nD) : S64x64.Idx → EReal := V c main_arg4
abbrev biasArr (c : Dev nD) : S1x64.Idx → EReal := V c main_v4

theorem zeroStart : (![0, 0] : Fin 2 → Nat) = fun _ => 0 := funext fun a => by fin_cases a <;> rfl

/-- The printed index maps over the grid: the three row-blocked inputs move with the output (block row `t`, block
    column 0); the root weight and the bias row stay at block (0, 0). -/
theorem blockIndex : ∀ t : Fin cfg1.N, win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the output function of the arrays as the call finds them. -/
theorem flushed_eq (c : Dev nD) (t : Fin cfg1.N) :
    (dat1 V c).flushed 5 t = ((cfg1.win 5).blk t).view.read (Elt Ideal)
      (nodeOut (V c main_v9) (V c main_v14) (V c main_arg0) (V c main_arg4) (V c main_v4)) := by
  show (cfg1.win 5).cut (grid1.coords t) ((dat1 V c).after 5 t) = _
  rw [after1_5]
  unfold out1_5
  rw [View.canon_unit_zero zeroStart]
  simp only [View.ld_unit_zero (S := S5000x64) zeroStart, View.ld_unit_zero (S := S5000x1) zeroStart,
    View.ld_unit_zero (S := S64x64) zeroStart, View.ld_unit_zero (S := S1x64) zeroStart]
  funext j
  show k1_pay1 (F := Ideal) (iblk1 V c 0 t) (iblk1 V c 1 t) (iblk1 V c 2 t) (iblk1 V c 3 t) (iblk1 V c 4 t) j
    = nodeOut (V c main_v9) (V c main_v14) (V c main_arg0) (V c main_arg4) (V c main_v4) (((cfg1.win 5).blk t).view.emb j)
  refine (pay_at _ _ _ _ _ j).trans ?_
  obtain ⟨e0, e1, e2, e3, e4, e5, e6, e7, e8, e9, e10, e11⟩ := blockIndex t
  have hj0 : (j 0).val < 5000 := (j 0).isLt
  have hj1 : (j 1).val < 64 := (j 1).isLt
  -- the message-sum block's entry is the array's at the output's own index
  have r0 : ((cfg1.win 0).blk t).view.emb j = ((cfg1.win 5).blk t).view.emb j := by
    funext a; apply Fin.ext
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 64 + 1 * (j 1).val = win1_5.index t (1 : Fin 2) * 64 + 1 * (j 1).val; omega
  -- the in-degree block's entry is the column's at the output's node
  have r1 : ((cfg1.win 1).blk t).view.emb (colOf j) = degIdx (((cfg1.win 5).blk t).view.emb j) := by
    funext a; apply Fin.ext
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 1 + 1 * 0 = 0; omega
  -- the feature block's row entry is the feature array's in the output's row
  have r2 : ∀ k : Fin 64, ((cfg1.win 2).blk t).view.emb (atRow j k) = atRow (((cfg1.win 5).blk t).view.emb j) k := fun k => by
    have hk : k.val < 64 := k.isLt
    funext a; apply Fin.ext
    match a with
    | ⟨0, _⟩ => show win1_2.index t (0 : Fin 2) * 5000 + 1 * (j 0).val = win1_5.index t (0 : Fin 2) * 5000 + 1 * (j 0).val; omega
    | ⟨1, _⟩ => show win1_2.index t (1 : Fin 2) * 64 + 1 * k.val = k.val; omega
  -- the root block is the whole root weight
  have r3 : ∀ k : Fin 64, ((cfg1.win 3).blk t).view.emb (atCol j k) = atCol (((cfg1.win 5).blk t).view.emb j) k := fun k => by
    have hk : k.val < 64 := k.isLt
    funext a; apply Fin.ext
    match a with
    | ⟨0, _⟩ => show win1_3.index t (0 : Fin 2) * 64 + 1 * k.val = k.val; omega
    | ⟨1, _⟩ => show win1_3.index t (1 : Fin 2) * 64 + 1 * (j 1).val = win1_5.index t (1 : Fin 2) * 64 + 1 * (j 1).val; omega
  -- the bias block is the whole bias row
  have r4 : ((cfg1.win 4).blk t).view.emb (rowOf j) = biasIdx (((cfg1.win 5).blk t).view.emb j) := by
    funext a; apply Fin.ext
    match a with
    | ⟨0, _⟩ => show win1_4.index t (0 : Fin 2) * 1 + 1 * 0 = 0; omega
    | ⟨1, _⟩ => show win1_4.index t (1 : Fin 2) * 64 + 1 * (j 1).val = win1_5.index t (1 : Fin 2) * 64 + 1 * (j 1).val; omega
  show Ideal.div (msArr V c (((cfg1.win 0).blk t).view.emb j)) (max (dgArr V c (((cfg1.win 1).blk t).view.emb (colOf j))) one)
      + (∑ k : Fin 64, xArr V c (((cfg1.win 2).blk t).view.emb (atRow j k)) * rootArr V c (((cfg1.win 3).blk t).view.emb (atCol j k)))
      + biasArr V c (((cfg1.win 4).blk t).view.emb (rowOf j))
    = Ideal.div (msArr V c (((cfg1.win 5).blk t).view.emb j)) (max (dgArr V c (degIdx (((cfg1.win 5).blk t).view.emb j))) one)
      + (∑ k : Fin 64, xArr V c (atRow (((cfg1.win 5).blk t).view.emb j) k) * rootArr V c (atCol (((cfg1.win 5).blk t).view.emb j) k))
      + biasArr V c (biasIdx (((cfg1.win 5).blk t).view.emb j))
  rw [r0, r1, r4]
  refine congrArg (· + _) (congrArg (_ + ·) (Finset.sum_congr rfl fun k _ => ?_))
  rw [r2 k, r3 k]

/-- An output index lies in point `t`'s block iff each coordinate is in the block's range. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v15).slice (win1_5.rect t)).set ↔ _
  rw [View.set_slice_whole, Rect.mem_set_unit]
  exact Iff.rfl

/-- Every output index is in the block of the point its row falls in. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨-, -, -, -, -, -, -, -, -, -, e10, e11⟩ := blockIndex t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The output array after the call, whatever the arrays held at its entry. -/
theorem final (c : Dev nD) :
    (dat1 V c).arrAt 5 cfg1.N = nodeOut (V c main_v9) (V c main_v14) (V c main_arg0) (V c main_arg4) (V c main_v4) :=
  (dat1 V c).arrAt_eq_of_cover 5 _ (fun t _ => flushed_eq V c t) cover

end Cert.KernelIdeal.NodeRegion

end
-- ==== Proof.LibAllOnes.lean ====
/-
  A reduction by `and` of an `i1` array whose every element is one, from the initial value one, is one at every
  result index — at any shapes and axes. (The library reads such a reduction back the other way: a result of
  one says every element that reduces into it was one.)
-/
import Idealize.ShloMosaic.Lib.ReduceAll

namespace Cert.LibAllOnes

open Idealize.ShloMosaic

/-- A left fold by `and` that starts at one and meets only ones ends at one. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_of_all f l _ ?_ (fun n hn => hl n (List.mem_cons_of_mem _ hn))
    show IntOp.andi init (f a) = 1#1
    rw [h, hl a List.mem_cons_self]
    decide

variable {s t u : Shape} {axes : List (Fin s.rank)}

/-- `jnp.all` along any axes of an all-ones mask is all ones. -/
theorem reduce_andi_of_all (x : s.Idx → BitVec 1) (init : u.Idx → BitVec 1) (h : s.ReducesTo axes t) (hu : 0 < u.numel)
    (hi : init (Shape.Idx.first hu) = 1#1) (hx : ∀ i, x i = 1#1) (j : t.Idx) :
    Host.reduce IntOp.andi x init h hu j = 1#1 := by
  rw [Host.reduce_eq_foldl]
  exact foldl_andi_of_all x _ _ hi (fun n _ => hx n)

end Cert.LibAllOnes
-- ==== Proof.TakeFill.lean ====
/-
  The kernel program gathers the source rows with `take` in its default mode: a negative index is wrapped
  once, and a row whose wrapped index is still outside [0, 49999] is filled with a NaN pattern instead of being
  read. This module names the pieces of that chain and shows that when every source index is in [0, 50000) the
  fill never happens: the range mask is all ones, so the result is the plain gather at the wrapped indices —
  which is what the reference computes.
-/
import proofs.«427790_j36249523978270_3_alg».proof.Proof.Gen.KernelIdeal.Launch
import proofs.«427790_j36249523978270_3_alg».proof.Proof.LibAllOnes
import Idealize.ShloMosaic.Lib.StableHlo.Run
import Idealize.ShloMosaic.Lib.Affine
import Idealize.ShloMosaic.PureOps.Ideal

set_option maxRecDepth 16384

noncomputable section

namespace Cert.KernelIdeal.TakeFill

open Cert.KernelIdeal Cert.KernelIdeal.Gen Idealize.ShloMosaic Idealize.ShloMosaic.TcCoe Idealize.SL.Sem Idealize.ShloMosaic.StableHlo

variable {F : FTy → Type} [FloatOps F]

/-- A negative index wrapped once by the table's 50000 rows. -/
def wrapIdx (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

/-- The wrapped indices as the gather's [800000, 1] start-index column. -/
def startIdx (src : IVec S800000 32) : IVec S800000x1 32 :=
  broadcastInDim S800000x1 ![0] bcast_S800000_S800000x1_0 (wrapIdx src)

/-- Per edge: is the wrapped index in [0, 49999]? -/
def inRange (src : IVec S800000 32) : IVec S800000 1 :=
  Host.reduce IntOp.andi
    (andi (cmpi .sge (startIdx src) (broadcastInDim S800000x1 ![] bcast_S_S800000x1 (constantI S_ 32 0#32)))
      (cmpi .sle (startIdx src) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- `take` with fill: the gathered row where the index is in range, the NaN pattern elsewhere. -/
def takeFill (x : FVec F S50000x64 .f32) (src : IVec S800000 32) : FVec F S800000x64 .f32 :=
  select (broadcastInDim S800000x64 ![0] bcast_S800000_S800000x64_0 (inRange src))
    (Host.gather gather_S50000x64_S800000x1_S800000x64_1_0_n_n_0_1_164 x (startIdx src))
    (broadcastInDim S800000x64 ![] bcast_S_S800000x64 (constant S_ .f32 0x7FC00000#32))

/-- Transporting a value to an equal type and back gives the value. -/
theorem cast_trans_self {α β : Sort _} (ha : α = β) (hb : β = α) (a : α) : cast (ha.trans hb) a = a := by
  subst ha; rfl

set_option maxHeartbeats 1000000 in
/-- The second host stretch of the kernel program leaves exactly that in the gathered-rows buffer, from whatever the
    buffers held before it. (The three transports are between a buffer's declared contents type and the literal one
    it computes to; each is the identity.) -/
theorem stretch_eq (W : Valuation τ sig (Elt F)) :
    StableHlo.after hostOps0_1 W (Proc.devRef .tc main_v5)
      = (TRef.of main_v5 : TRef sig ⟨S800000x64, .f32⟩).toBuf (takeFill (F := F)
          ((TRef.of main_arg0 : TRef sig ⟨S50000x64, .f32⟩).ofBuf (W (Proc.devRef .tc main_arg0)))
          ((TRef.of main_v1 : TRef sig ⟨S800000, .i32⟩).ofBuf (W (Proc.devRef .tc main_v1)))) := by
  unfold takeFill inRange startIdx wrapIdx
  after_results_simp
  simp only [TRef.ofBuf, TRef.toBuf, cast_cast, cast_trans_self]

/-- One word: in [0, 50000) it is not wrapped, and it passes both range tests. -/
theorem word_ok (w : BitVec 32) (h1 : IntOp.cmpi .sge w 0#32 = 1#1) (h2 : IntOp.cmpi .slt w 50000#32 = 1#1) :
    IntOp.andi (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  have z : (0#32 : BitVec 32).toInt = 0 := by decide
  have n : (50000#32 : BitVec 32).toInt = 50000 := by decide
  have n' : (49999#32 : BitVec 32).toInt = 49999 := by decide
  have g1 := IntOp.cmpi_sge.1 h1
  have g2 := IntOp.cmpi_slt.1 h2
  rw [z] at g1
  rw [n] at g2
  have hneg : ¬ IntOp.cmpi .slt w 0#32 = 1#1 := by rw [IntOp.cmpi_slt, z]; omega
  have hsel : Scalar.select (IntOp.cmpi .slt w 0#32) (IntOp.addi w 50000#32) w = w := if_neg hneg
  rw [hsel]
  refine IntOp.andi_eq_one.2 ⟨h1, ?_⟩
  rw [IntOp.cmpi_sle, n']
  omega

/-- The start index at a position is the wrap of one source word. -/
theorem start_at (src : IVec S800000 32) (i : S800000x1.Idx) :
    ∃ e, startIdx src i = Scalar.select (IntOp.cmpi .slt (src e) 0#32) (IntOp.addi (src e) 50000#32) (src e) :=
  ⟨_, rfl⟩

/-- So, with every source index in [0, 50000), both range tests pass at every position. -/
theorem operand_one (src : IVec S800000 32)
    (h : ∀ e, IntOp.cmpi .sge (src e) 0#32 = 1#1 ∧ IntOp.cmpi .slt (src e) 50000#32 = 1#1) (i : S800000x1.Idx) :
    (andi (cmpi .sge (startIdx src) (broadcastInDim S800000x1 ![] bcast_S_S800000x1 (constantI S_ 32 0#32)))
      (cmpi .sle (startIdx src) (broadcastInDim S800000x1 ![0, 1] bcast_S1x1_S800000x1_0_1
        (broadcastInDim S1x1 ![1] bcast_S1_S1x1_1 (constantI S1 32 49999#32))))) i = 1#1 := by
  obtain ⟨e, he⟩ := start_at src i
  show IntOp.andi (IntOp.cmpi .sge (startIdx src i) 0#32) (IntOp.cmpi .sle (startIdx src i) 49999#32) = 1#1
  rw [he]
  exact word_ok _ (h e).1 (h e).2

/-- And the range mask is all ones. -/
theorem inRange_all (src : IVec S800000 32)
    (h : ∀ e, IntOp.cmpi .sge (src e) 0#32 = 1#1 ∧ IntOp.cmpi .slt (src e) 50000#32 = 1#1) (j : S800000.Idx) :
    inRange src j = 1#1 :=
  Cert.LibAllOnes.reduce_andi_of_all _ (constantI S_ 1 1#1) reducesTo_S800000x1_S800000_d1 h_S_ rfl (operand_one src h) j

/-- Then nothing is filled: `take` is the plain gather at the wrapped indices. -/
theorem takeFill_eq_gather (x : FVec F S50000x64 .f32) (src : IVec S800000 32)
    (h : ∀ e, IntOp.cmpi .sge (src e) 0#32 = 1#1 ∧ IntOp.cmpi .slt (src e) 50000#32 = 1#1) :
    takeFill x src = Host.gather gather_S50000x64_S800000x1_S800000x64_1_0_n_n_0_1_164 x (startIdx src) := by
  funext i
  obtain ⟨j, hj⟩ : ∃ j, broadcastInDim S800000x64 ![0] bcast_S800000_S800000x64_0 (inRange src) i = inRange src j := ⟨_, rfl⟩
  have hm : broadcastInDim S800000x64 ![0] bcast_S800000_S800000x64_0 (inRange src) i = 1#1 := hj.trans (inRange_all src h j)
  unfold takeFill
  show Scalar.select (broadcastInDim S800000x64 ![0] bcast_S800000_S800000x64_0 (inRange src) i)
      (Host.gather gather_S50000x64_S800000x1_S800000x64_1_0_n_n_0_1_164 x (startIdx src) i) _ = _
  rw [hm]
  rfl

end Cert.KernelIdeal.TakeFill

end
-- ==== Proof.KernelValue.lean ====
/-
  The kernel program's result as one function of its six argument arrays. Read backwards from the last segment
  boundary: the result is the finalize call's output (`Spec.nodeOut`) of the scattered message sums, the scattered
  in-degree kept as a column, the node features, the root weight and the bias kept as a row; the message sums
  scatter the edge call's output (`Spec.edgeMsg`) of the edge embeddings, the rows of `x` taken at the source
  indices, and the relation weight; source and destination indices are the two rows of the edge index array.
  Each step is one boundary of the run: a host stretch read by its operations, a call read by its region fact,
  a buffer nobody writes carried unchanged.
-/
import proofs.«427790_j36249523978270_3_alg».proof.Proof.EdgeRegion
import proofs.«427790_j36249523978270_3_alg».proof.Proof.NodeRegion
import proofs.«427790_j36249523978270_3_alg».proof.Proof.TakeFill

set_option maxRecDepth 16384

noncomputable section

namespace Cert.KernelIdeal.KernelValue

open Cert.KernelIdeal Cert.KernelIdeal.Gen Cert.Spec Idealize.ShloMosaic Idealize.ShloMosaic.TcCoe Idealize.SL.Sem
open Idealize.ShloMosaic.StableHlo

/-! ## The host operations, named -/

/-- Row 0 of the edge index array: the source node of every edge. -/
def srcVec (ei : IVec S2x800000 32) : IVec S800000 32 :=
  shapeCast S800000 (extractStridedSlice S1x800000 ![0, 0] ei slices_S2x800000_S1x800000_0_0) shapeCasts_S1x800000_S800000
/-- Row 1: the destination node of every edge. -/
def dstVec (ei : IVec S2x800000 32) : IVec S800000 32 :=
  shapeCast S800000 (extractStridedSlice S1x800000 ![1, 0] ei slices_S2x800000_S1x800000_1_0) shapeCasts_S1x800000_S800000
/-- The messages summed into their destination nodes, from zero. -/
def msgSum (dst : IVec S800000 32) (u : FVec Ideal S800000x64 .f32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst) u
/-- A one per edge summed into its destination node, from zero: the in-degree. -/
def degVec (dst : IVec S800000 32) : FVec Ideal S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))
/-- The in-degree as a [50000, 1] column. -/
def degCol (dst : IVec S800000 32) : FVec Ideal S50000x1 .f32 := shapeCast S50000x1 (degVec dst) shapeCasts_S50000_S50000x1
/-- The bias as a [1, 64] row. -/
def biasRow (b : FVec Ideal S64 .f32) : FVec Ideal S1x64 .f32 := shapeCast S1x64 b shapeCasts_S64_S1x64

/-- The whole program as a function of the arguments. -/
def value (x : FVec Ideal S50000x64 .f32) (ei : IVec S2x800000 32) (ee : FVec Ideal S800000x64 .f32) (lw root : FVec Ideal S64x64 .f32)
    (b : FVec Ideal S64 .f32) : FVec Ideal S50000x64 .f32 :=
  nodeOut (msgSum (dstVec ei) (edgeMsg ee (TakeFill.takeFill x (srcVec ei)) lw)) (degCol (dstVec ei)) x root (biasRow b)

/-! ## Buffers a stretch does not write, and the ones it does -/

section Stretches
variable (W : Valuation τ sig (Elt Ideal))

theorem s0_v1 : StableHlo.after hostOps0 W (Proc.devRef .tc main_v1) = srcVec (W (Proc.devRef .tc main_arg1)) := by
  unfold srcVec; after_results <;> rfl
theorem s0_v3 : StableHlo.after hostOps0 W (Proc.devRef .tc main_v3) = dstVec (W (Proc.devRef .tc main_arg1)) := by
  unfold dstVec; after_results <;> rfl
theorem s0_v4 : StableHlo.after hostOps0 W (Proc.devRef .tc main_v4) = biasRow (W (Proc.devRef .tc main_arg5)) := by
  unfold biasRow; after_results <;> rfl
theorem s0_arg0 : StableHlo.after hostOps0 W (Proc.devRef .tc main_arg0) = W (Proc.devRef .tc main_arg0) := by after_results <;> rfl
theorem s0_arg2 : StableHlo.after hostOps0 W (Proc.devRef .tc main_arg2) = W (Proc.devRef .tc main_arg2) := by after_results <;> rfl
theorem s0_arg3 : StableHlo.after hostOps0 W (Proc.devRef .tc main_arg3) = W (Proc.devRef .tc main_arg3) := by after_results <;> rfl
theorem s0_arg4 : StableHlo.after hostOps0 W (Proc.devRef .tc main_arg4) = W (Proc.devRef .tc main_arg4) := by after_results <;> rfl

/-- A transport between a buffer's declared contents type and the literal type it computes to is the identity. -/
theorem toBuf_v5 (v : FVec Ideal S800000x64 .f32) : (TRef.of main_v5 : TRef sig ⟨S800000x64, .f32⟩).toBuf (Val := Elt Ideal) v = v :=
  eq_of_heq (cast_heq _ _)
theorem ofBuf_arg0 (v : FVec Ideal S50000x64 .f32) : (TRef.of main_arg0 : TRef sig ⟨S50000x64, .f32⟩).ofBuf (Val := Elt Ideal) v = v :=
  eq_of_heq (cast_heq _ _)
theorem ofBuf_v1 (v : IVec S800000 32) : (TRef.of main_v1 : TRef sig ⟨S800000, .i32⟩).ofBuf (Val := Elt Ideal) v = v :=
  eq_of_heq (cast_heq _ _)

/-- The gathered-rows buffer after the second stretch. -/
theorem s1_v5 : StableHlo.after hostOps0_1 W (Proc.devRef .tc main_v5)
    = TakeFill.takeFill (F := Ideal) (W (Proc.devRef .tc main_arg0)) (W (Proc.devRef .tc main_v1)) := by
  refine (TakeFill.stretch_eq W).trans ?_
  rw [toBuf_v5, ofBuf_arg0, ofBuf_v1]
set_option maxHeartbeats 2000000 in
theorem s1_v3 : StableHlo.after hostOps0_1 W (Proc.devRef .tc main_v3) = W (Proc.devRef .tc main_v3) := by after_results_simp <;> rfl
set_option maxHeartbeats 2000000 in
theorem s1_v4 : StableHlo.after hostOps0_1 W (Proc.devRef .tc main_v4) = W (Proc.devRef .tc main_v4) := by after_results_simp <;> rfl
set_option maxHeartbeats 2000000 in
theorem s1_arg0 : StableHlo.after hostOps0_1 W (Proc.devRef .tc main_arg0) = W (Proc.devRef .tc main_arg0) := by after_results_simp <;> rfl
set_option maxHeartbeats 2000000 in
theorem s1_arg2 : StableHlo.after hostOps0_1 W (Proc.devRef .tc main_arg2) = W (Proc.devRef .tc main_arg2) := by after_results_simp <;> rfl
set_option maxHeartbeats 2000000 in
theorem s1_arg3 : StableHlo.after hostOps0_1 W (Proc.devRef .tc main_arg3) = W (Proc.devRef .tc main_arg3) := by after_results_simp <;> rfl
set_option maxHeartbeats 2000000 in
theorem s1_arg4 : StableHlo.after hostOps0_1 W (Proc.devRef .tc main_arg4) = W (Proc.devRef .tc main_arg4) := by after_results_simp <;> rfl

theorem s2_v9 : StableHlo.after hostOps1 W (Proc.devRef .tc main_v9) = msgSum (W (Proc.devRef .tc main_v3)) (W (Proc.devRef .tc main_v6)) := by
  unfold msgSum; after_results <;> rfl
theorem s2_v14 : StableHlo.after hostOps1 W (Proc.devRef .tc main_v14) = degCol (W (Proc.devRef .tc main_v3)) := by
  unfold degCol degVec; after_results <;> rfl
theorem s2_v4 : StableHlo.after hostOps1 W (Proc.devRef .tc main_v4) = W (Proc.devRef .tc main_v4) := by after_results <;> rfl
theorem s2_arg0 : StableHlo.after hostOps1 W (Proc.devRef .tc main_arg0) = W (Proc.devRef .tc main_arg0) := by after_results <;> rfl
theorem s2_arg4 : StableHlo.after hostOps1 W (Proc.devRef .tc main_arg4) = W (Proc.devRef .tc main_arg4) := by after_results <;> rfl

end Stretches

/-! ## The result buffer, read back to the arguments -/

variable (m : (ℓ : Loc nD τ sig) → Buf (Elt Ideal) ℓ) (ρ : Dev nD → PrngReg)

/-- The run's last boundary holds, in the result buffer, the program's value of the argument arrays as launched. -/
theorem result_eq (c : Dev nD) :
    W5 m ρ c (Proc.devRef .tc main_v15)
      = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  -- the finalize call
  refine ((W5_arr m ρ c 5).trans (NodeRegion.final (V4 m ρ) c)).trans ?_
  -- the stretch between the calls
  have h9 : V4 m ρ c main_v9 = msgSum (W3 m ρ c (Proc.devRef .tc main_v3)) (W3 m ρ c (Proc.devRef .tc main_v6)) := s2_v9 (W3 m ρ c)
  have h14 : V4 m ρ c main_v14 = degCol (W3 m ρ c (Proc.devRef .tc main_v3)) := s2_v14 (W3 m ρ c)
  have h4 : V4 m ρ c main_v4 = W3 m ρ c (Proc.devRef .tc main_v4) := s2_v4 (W3 m ρ c)
  have ha0 : V4 m ρ c main_arg0 = W3 m ρ c (Proc.devRef .tc main_arg0) := s2_arg0 (W3 m ρ c)
  have ha4 : V4 m ρ c main_arg4 = W3 m ρ c (Proc.devRef .tc main_arg4) := s2_arg4 (W3 m ρ c)
  -- the edge call, and the buffers it leaves alone
  have h6 : W3 m ρ c (Proc.devRef .tc main_v6) = edgeMsg (V2 m ρ c main_arg2) (V2 m ρ c main_v5) (V2 m ρ c main_arg3) :=
    (W3_arr m ρ c 3).trans (EdgeRegion.final (V2 m ρ) c)
  have k3 : W3 m ρ c (Proc.devRef .tc main_v3) = W2 m ρ c (Proc.devRef .tc main_v3) := W3_of_ne m ρ c main_v3 (by decide)
  have k4 : W3 m ρ c (Proc.devRef .tc main_v4) = W2 m ρ c (Proc.devRef .tc main_v4) := W3_of_ne m ρ c main_v4 (by decide)
  have ka0 : W3 m ρ c (Proc.devRef .tc main_arg0) = W2 m ρ c (Proc.devRef .tc main_arg0) := W3_of_ne m ρ c main_arg0 (by decide)
  have ka4 : W3 m ρ c (Proc.devRef .tc main_arg4) = W2 m ρ c (Proc.devRef .tc main_arg4) := W3_of_ne m ρ c main_arg4 (by decide)
  -- the two stretches before the edge call, down to the launch memory
  have l3 : W2 m ρ c (Proc.devRef .tc main_v3) = dstVec (m ((c : Thread nD τ).loc main_arg1)) :=
    (s1_v3 (W1 m ρ c)).trans (s0_v3 (W0 m ρ c))
  have l4 : W2 m ρ c (Proc.devRef .tc main_v4) = biasRow (m ((c : Thread nD τ).loc main_arg5)) :=
    (s1_v4 (W1 m ρ c)).trans (s0_v4 (W0 m ρ c))
  have la0 : W2 m ρ c (Proc.devRef .tc main_arg0) = m ((c : Thread nD τ).loc main_arg0) :=
    (s1_arg0 (W1 m ρ c)).trans (s0_arg0 (W0 m ρ c))
  have la2 : V2 m ρ c main_arg2 = m ((c : Thread nD τ).loc main_arg2) :=
    (s1_arg2 (W1 m ρ c)).trans (s0_arg2 (W0 m ρ c))
  have la3 : V2 m ρ c main_arg3 = m ((c : Thread nD τ).loc main_arg3) :=
    (s1_arg3 (W1 m ρ c)).trans (s0_arg3 (W0 m ρ c))
  have la4 : W2 m ρ c (Proc.devRef .tc main_arg4) = m ((c : Thread nD τ).loc main_arg4) :=
    (s1_arg4 (W1 m ρ c)).trans (s0_arg4 (W0 m ρ c))
  have l5 : V2 m ρ c main_v5
      = TakeFill.takeFill (F := Ideal) (m ((c : Thread nD τ).loc main_arg0)) (srcVec (m ((c : Thread nD τ).loc main_arg1))) := by
    refine (s1_v5 (W1 m ρ c)).trans ?_
    rw [show W1 m ρ c (Proc.devRef .tc main_arg0) = m ((c : Thread nD τ).loc main_arg0) from s0_arg0 (W0 m ρ c),
      show W1 m ρ c (Proc.devRef .tc main_v1) = srcVec (m ((c : Thread nD τ).loc main_arg1)) from s0_v1 (W0 m ρ c)]
  rw [h9, h14, h4, ha0, ha4, h6, k3, k4, ka0, ka4, l3, l4, la0, la2, la3, la4, l5]
  rfl

end Cert.KernelIdeal.KernelValue

end
-- ==== Proof.RefValue.lean ====
/-
  The reference program's result, read at an index through its generated stage lemmas: its edge products are the
  specification's message function of the gathered rows, and its output at node `p`, channel `q` is the scattered
  message sum over `max (scattered in-degree, 1)`, plus the row of `x` through the root weight, plus the bias.
  The two scatters and the gather are kept as the named stages they are; nothing here looks inside them.
-/
import proofs.«427790_j36249523978270_3_alg».proof.Proof.Gen.ReferenceIdeal.Read
import proofs.«427790_j36249523978270_3_alg».proof.Proof.Spec

noncomputable section

namespace Cert.ReferenceIdeal.RefValue

open Cert.ReferenceIdeal Cert.ReferenceIdeal.Gen Cert.ReferenceIdeal.Read Cert.Spec
open Idealize.ShloMosaic Idealize.ShloMosaic.TcCoe Idealize.SL.Sem Idealize.ShloMosaic.StableHlo

/-- The node of an output index, as the in-degree vector is read through its two broadcasts. -/
abbrev nodeIdx (i : S50000x64.Idx) : S50000.Idx := idx_main_v22 (idx_main_v23 i)
/-- The channel of an output index, as the bias vector is read through its two broadcasts. -/
abbrev chanIdx (i : S50000x64.Idx) : S64.Idx := idx_main_v27 (idx_main_v28 i)

theorem lidx4_eq (i : S800000x64.Idx) (k : Fin 64) : lidx_main_v4 i k = atRow i k :=
  funext fun a => by match a with | ⟨0, _⟩ => rfl | ⟨1, _⟩ => rfl
theorem ridx4_eq (i : S800000x64.Idx) (k : Fin 64) : ridx_main_v4 i k = atCol i k :=
  funext fun a => by match a with | ⟨0, _⟩ => rfl | ⟨1, _⟩ => rfl
theorem lidx25_eq (i : S50000x64.Idx) (k : Fin 64) : lidx_main_v25 i k = atRow i k :=
  funext fun a => by match a with | ⟨0, _⟩ => rfl | ⟨1, _⟩ => rfl
theorem ridx25_eq (i : S50000x64.Idx) (k : Fin 64) : ridx_main_v25 i k = atCol i k :=
  funext fun a => by match a with | ⟨0, _⟩ => rfl | ⟨1, _⟩ => rfl

/-- The reference's per-edge products are the message function of its gathered rows. -/
theorem msgs_eq (x0 : (⟨S50000x64, .f32⟩ : BufTy).Contents (Elt Ideal)) (x1 : (⟨S2x800000, .i32⟩ : BufTy).Contents (Elt Ideal))
    (x2 : (⟨S800000x64, .f32⟩ : BufTy).Contents (Elt Ideal)) (x3 : (⟨S64x64, .f32⟩ : BufTy).Contents (Elt Ideal)) :
    val_main_v12 (F := Ideal) x0 x1 x2 x3 = edgeMsg x2 (val_main_v11 (F := Ideal) x0 x1) x3 := by
  funext i
  rw [val_main_v12_apply, val_main_v4_apply]
  simp only [lidx4_eq, ridx4_eq]
  rfl

/-- The reference's output at an index. -/
theorem out_at (x0 : (⟨S50000x64, .f32⟩ : BufTy).Contents (Elt Ideal)) (x1 : (⟨S2x800000, .i32⟩ : BufTy).Contents (Elt Ideal))
    (x2 : (⟨S800000x64, .f32⟩ : BufTy).Contents (Elt Ideal)) (x3 x4 : (⟨S64x64, .f32⟩ : BufTy).Contents (Elt Ideal))
    (x5 : (⟨S64, .f32⟩ : BufTy).Contents (Elt Ideal)) (i : S50000x64.Idx) :
    val_main_v29 (F := Ideal) x0 x1 x2 x3 x4 x5 i
      = Ideal.div (val_main_v15 (F := Ideal) x0 x1 x2 x3 i) (max (val_main_v19 (F := Ideal) x1 (nodeIdx i)) one)
        + matProd x0 x4 i + x5 (chanIdx i) := by
  rw [val_main_v29_apply, val_main_v26_apply, val_main_v24_apply, val_main_v25_apply, val_main_v23_apply,
    val_main_v22_apply, val_main_v21_apply, val_main_v28_apply, val_main_v27_apply]
  simp only [lidx25_eq, ridx25_eq]
  rfl

end Cert.ReferenceIdeal.RefValue

end
-- ==== Proof.Bridge.lean ====
/-
  The two programs compute one function. With every source index in [0, 50000):
  * the kernel program's `take` is the reference's gather (no row is filled), so the edge call's messages are the
    reference's per-edge products, index by index;
  * both programs scatter those into the destination nodes with the same operation, from the same zeros, at the same
    indices — equal operands, equal results; likewise the in-degree;
  * at an output index both then read `msg_sum / max (deg, 1) + x·root + bias`, the kernel program holding the in-degree
    as a column and the bias as a row where the reference broadcasts them.
-/
import proofs.«427790_j36249523978270_3_alg».proof.Proof.KernelValue
import proofs.«427790_j36249523978270_3_alg».proof.Proof.RefValue

set_option maxRecDepth 16384

noncomputable section

namespace Cert.Bridge

open Cert.Spec Idealize.ShloMosaic Idealize.ShloMosaic.TcCoe
open Cert.KernelIdeal Cert.KernelIdeal.Gen Cert.KernelIdeal.KernelValue
open Cert.ReferenceIdeal.Read Cert.ReferenceIdeal.RefValue

/-- A scatter-add of equal operands is equal. -/
theorem scatterAdd_congr {s si u : Shape} {w : Nat} {φ : FTy} {d d' : ScatterDims s si u} (hd : d = d')
    {x x' : FVec Ideal s φ} (hx : x = x') {idx idx' : IVec si w} (hi : idx = idx') {upd upd' : FVec Ideal u φ} (hu : upd = upd') :
    Host.scatterAdd d x idx upd = Host.scatterAdd d' x' idx' upd' := by
  subst hd hx hi hu; rfl

variable (x : FVec Ideal S50000x64 .f32) (ei : IVec S2x800000 32) (ee : FVec Ideal S800000x64 .f32) (lw root : FVec Ideal S64x64 .f32)
  (b : FVec Ideal S64 .f32)

/-- The plain gather at the wrapped source indices is the reference's gather stage. -/
theorem gather_eq :
    Host.gather gather_S50000x64_S800000x1_S800000x64_1_0_n_n_0_1_164 x (TakeFill.startIdx (srcVec ei)) = val_main_v11 (F := Ideal) x ei := rfl

/-- The scattered message sums agree. -/
theorem msgSum_eq (hsrc : ∀ e, IntOp.cmpi .sge (srcVec ei e) 0#32 = 1#1 ∧ IntOp.cmpi .slt (srcVec ei e) 50000#32 = 1#1) :
    msgSum (dstVec ei) (edgeMsg ee (TakeFill.takeFill x (srcVec ei)) lw) = val_main_v15 (F := Ideal) x ei ee lw := by
  rw [TakeFill.takeFill_eq_gather x (srcVec ei) hsrc, gather_eq]
  unfold msgSum val_main_v15
  exact scatterAdd_congr rfl rfl rfl (msgs_eq x ei ee lw).symm

/-- The scattered in-degrees agree. -/
theorem degVec_eq : degVec (dstVec ei) = val_main_v19 (F := Ideal) ei := by
  unfold degVec val_main_v19
  exact scatterAdd_congr rfl rfl rfl rfl

/-- The kernel program's value is the reference's result stage. -/
theorem value_eq (hsrc : ∀ e, IntOp.cmpi .sge (srcVec ei e) 0#32 = 1#1 ∧ IntOp.cmpi .slt (srcVec ei e) 50000#32 = 1#1) :
    value x ei ee lw root b = val_main_v29 (F := Ideal) x ei ee lw root b := by
  funext i
  rw [out_at]
  unfold value nodeOut
  rw [msgSum_eq x ei ee lw hsrc]
  have e2 : degCol (dstVec ei) (degIdx i) = val_main_v19 (F := Ideal) ei (nodeIdx i) := by
    unfold degCol
    rw [degVec_eq]
    exact shapeCast_apply _ shapeCasts_S50000_S50000x1 (degIdx i) (nodeIdx i)
      (by rw [Shape.rowMajor_val_one, Shape.rowMajor_val_two]; show (i 0).val = (i 0).val * 1 + 0; omega)
  have e3 : biasRow b (biasIdx i) = b (chanIdx i) := by
    unfold biasRow
    exact shapeCast_apply _ shapeCasts_S64_S1x64 (biasIdx i) (chanIdx i)
      (by rw [Shape.rowMajor_val_one, Shape.rowMajor_val_two]; show (i 1).val = 0 * 64 + (i 1).val; omega)
  rw [e2, e3]

end Cert.Bridge

end
-- ==== Proof.SrcRange.lean ====
/-
  What the added conjunct of the precondition says, read back from its printed form: the predicate ends in
  `… ∧ all (0 ≤ edge_index[0] ∧ edge_index[0] < 50000)`, so when it is all ones every source index, read
  signed, passes both comparisons. Only this last conjunct is opened; the finiteness conjuncts are not needed.
-/
import proofs.«427790_j36249523978270_3_alg».proof.Pre_finite_inputs
import Idealize.ShloMosaic.Lib.ReduceAll
import Idealize.ShloMosaic.Lib.ValueIdx

noncomputable section

namespace Cert.Pre_finite_inputs.Range

open Cert.Pre_finite_inputs Cert.Pre_finite_inputs.Facts Idealize.ShloMosaic

variable [Facts] {F : FTy → Type} [FloatOps F]

instance : Subsingleton S_.Idx := ⟨fun a b => funext fun d => d.elim0⟩

/-- The source indices: row 0 of the edge index array, as a vector of 800000 words. -/
def srcOf (ei : IVec S2x800000 32) : IVec S800000 32 :=
  shapeCast S800000 (extractStridedSlice S1x800000 ![0, 0] ei slices_S2x800000_S1x800000_0_0) shapeCasts_S1x800000_S800000

/-- Under the precondition every source index is in [0, 50000). -/
theorem src_in_range (a0 : FVec F S50000x64 .f32) (ei : IVec S2x800000 32) (a2 : FVec F S800000x64 .f32)
    (a3 a4 : FVec F S64x64 .f32) (a5 : FVec F S64 .f32) (h : fn (F := F) a0 ei a2 a3 a4 a5 = fun _ => 1#1) (e : S800000.Idx) :
    IntOp.cmpi .sge (srcOf ei e) 0#32 = 1#1 ∧ IntOp.cmpi .slt (srcOf ei e) 50000#32 = 1#1 := by
  have h0 := congrFun h ValueIdx.ix0
  dsimp only [fn, fn_part1] at h0
  have h0' : IntOp.andi _ _ = 1#1 := h0
  have h33 := (IntOp.andi_eq_one.1 h0').2
  have h32 := Host.reduce_andi_all _ _ _ _ ValueIdx.ix0 h33 e
  have h32' : IntOp.andi _ _ = 1#1 := h32
  exact IntOp.andi_eq_one.1 h32'

end Cert.Pre_finite_inputs.Range

end
-- ==== Proof.lean ====
/-
  A relational graph convolution with mean aggregation, as two kernel calls around a host gather and two host
  segment sums, against its reference — equal over the extended reals for finite float inputs and source node indices in
  [0, 50000).

  Both programs compute, for node `p` and channel `q`,
      `(∑_{e : dst e = p} (∑_k edge_emb[e, k] · l_weight[k, q]) · x[src e, q]) / max (deg p, 1) + ∑_k x[p, k] · root[k, q] + bias[q]`.
  The kernel program gathers `x[src]` on the host with `take` (which would fill an out-of-range row with a NaN
  pattern where the reference's indexing clamps: the one place the index range is used), forms the per-edge messages
  in its first call (Proof/EdgeRegion.lean), sums them and the in-degree into the nodes with the same scatter the
  reference uses, and finishes in its second call (Proof/NodeRegion.lean). Proof/ResultRun.lean is the run with the
  result buffer read; Proof/KernelValue.lean reads that buffer back to the arguments; Proof/RefValue.lean reads the
  reference's generated run at an index; Proof/Bridge.lean joins the two. No algebraic law is needed beyond the
  meaning of the operations: the sums are the same sums in the same order of terms, so finiteness is not used.

  The frames of the two kernel programs are the generated ones; the reference's frame is its generated run with the
  result dropped; the idealization rewrote nothing, so `preserves` is trivial.
-/
import proofs.«427790_j36249523978270_3_alg».proof.Defs
import proofs.«427790_j36249523978270_3_alg».proof.Proof.Gen.Kernel
import proofs.«427790_j36249523978270_3_alg».proof.Proof.Gen.Kernel.Skeleton
import proofs.«427790_j36249523978270_3_alg».proof.Proof.Gen.Kernel.Launch
import proofs.«427790_j36249523978270_3_alg».proof.Proof.Gen.Kernel.Points
import proofs.«427790_j36249523978270_3_alg».proof.Proof.Gen.Kernel.Frame
import proofs.«427790_j36249523978270_3_alg».proof.Proof.Gen.KernelIdeal
import proofs.«427790_j36249523978270_3_alg».proof.Proof.Gen.KernelIdeal.Skeleton
import proofs.«427790_j36249523978270_3_alg».proof.Proof.Gen.KernelIdeal.Launch
import proofs.«427790_j36249523978270_3_alg».proof.Proof.Gen.KernelIdeal.Points
import proofs.«427790_j36249523978270_3_alg».proof.Proof.Gen.KernelIdeal.Frame
import proofs.«427790_j36249523978270_3_alg».proof.Proof.Gen.ReferenceIdeal
import proofs.«427790_j36249523978270_3_alg».proof.Proof.Gen.Pre_finite_inputs
import proofs.«427790_j36249523978270_3_alg».proof.Proof.Gen.ReferenceIdeal.Run
import proofs.«427790_j36249523978270_3_alg».proof.Proof.Gen.ReferenceIdeal.Read
import proofs.«427790_j36249523978270_3_alg».proof.Proof.ResultRun
import proofs.«427790_j36249523978270_3_alg».proof.Proof.Bridge
import proofs.«427790_j36249523978270_3_alg».proof.Proof.SrcRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, under the precondition: the kernel program's result buffer ends at its
    value of the arguments (the run read back), the reference's at its result stage of the same arguments (its
    generated run), and the two are one function where every source index is in range. -/
theorem algebraic : Cert.algebraic_KernelIdeal_ReferenceIdeal := by
  intro m ρ m' ρ' hpre hagree
  refine ⟨fun c => Cert.KernelIdeal.KernelValue.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result_eq m ρ c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v29_eq, (hagree c).1, (hagree c).2.1, (hagree c).2.2.1, (hagree c).2.2.2.1,
      (hagree c).2.2.2.2.1, (hagree c).2.2.2.2.2]
    exact (Cert.Bridge.value_eq _ _ _ _ _ _
      (fun e => Cert.Pre_finite_inputs.Range.src_in_range _ _ _ _ _ _ (hpre c) e)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
